-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : IVec S4096x4096 1) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S1x4096, .f32⟩
  | .hbm, ⟨5, _⟩ => ⟨S4096x4096, .i32⟩
  | .hbm, ⟨6, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  A masked linear layer, as mathematics, with no program in sight.

  The layer sends a row `x r` of the input to `Σ_k x r k · W' o k + b o`, where `W' o k` is the weight `W o k` where the
  mask bit of `(o, k)` is set and zero where it is clear. Everything is over the extended reals, where addition is a
  commutative monoid: regrouping the contraction into eight consecutive runs of 512 terms needs no finiteness.

  To keep all index arithmetic in the naturals, the two arrays are extended by zero to every pair of naturals
  (`xAt`, `wAt`): inside the arrays' bounds these are the arrays' entries, and outside they are never consulted.
-/
import Idealize.ShloMosaic.PureOps.Ideal
import Idealize.ShloMosaic.Lib.ValueIdx

noncomputable section

open scoped BigOperators

namespace MaskedLinear

open Idealize.ShloMosaic Idealize.ShloMosaic.ValueIdx

/-- The shapes of the input, of the weight and its mask, and of the bias. -/
abbrev SX : Shape := ⟨2, ![8192, 4096]⟩
abbrev SW : Shape := ⟨2, ![4096, 4096]⟩
abbrev SB : Shape := ⟨1, ![4096]⟩

/-- A weight entry where its mask bit is set, zero where it is clear. -/
def kept (bit : BitVec 1) (w : EReal) : EReal := if bit = 1#1 then w else 0

/-- The input at row `r`, column `k`; zero outside the array. -/
def xAt (x : SX.Idx → EReal) (r k : ℕ) : EReal :=
  if h : r < 8192 ∧ k < 4096 then x (ix2 ⟨r, h.1⟩ ⟨k, h.2⟩) else 0

/-- The masked weight at output feature `o`, column `k`; zero outside the array. -/
def wAt (W : SW.Idx → EReal) (mask : SW.Idx → BitVec 1) (o k : ℕ) : EReal :=
  if h : o < 4096 ∧ k < 4096 then kept (mask (ix2 ⟨o, h.1⟩ ⟨k, h.2⟩)) (W (ix2 ⟨o, h.1⟩ ⟨k, h.2⟩)) else 0

/-- Term `k` of the contraction of input row `r` against the masked weight row `o`. -/
def term (x : SX.Idx → EReal) (W : SW.Idx → EReal) (mask : SW.Idx → BitVec 1) (r o k : ℕ) : EReal :=
  xAt x r k * wAt W mask o k

/-- THE LAYER's entry `(r, o)`: the contraction of input row `r` against the masked weight row `o`, plus the bias of
    feature `o`. -/
def layerAt (x : SX.Idx → EReal) (W : SW.Idx → EReal) (mask : SW.Idx → BitVec 1) (b : SB.Idx → EReal)
    (r : Fin 8192) (o : Fin 4096) : EReal :=
  (∑ k : Fin 4096, x (ix2 r k) * kept (mask (ix2 o k)) (W (ix2 o k))) + b (ix1 o)

/-- THE LAYER as an array. -/
def layer (x : SX.Idx → EReal) (W : SW.Idx → EReal) (mask : SW.Idx → BitVec 1) (b : SB.Idx → EReal) : SX.Idx → EReal :=
  fun i => layerAt x W mask b (i 0) (i 1)

theorem layer_apply (x : SX.Idx → EReal) (W : SW.Idx → EReal) (mask : SW.Idx → BitVec 1) (b : SB.Idx → EReal)
    (r : Fin 8192) (o : Fin 4096) : layer x W mask b (ix2 r o) = layerAt x W mask b r o := rfl

theorem xAt_of_lt (x : SX.Idx → EReal) (r : Fin 8192) (k : Fin 4096) : xAt x r.val k.val = x (ix2 r k) := by
  unfold xAt; rw [dif_pos ⟨r.isLt, k.isLt⟩]

theorem wAt_of_lt (W : SW.Idx → EReal) (mask : SW.Idx → BitVec 1) (o k : Fin 4096) :
    wAt W mask o.val k.val = kept (mask (ix2 o k)) (W (ix2 o k)) := by
  unfold wAt; rw [dif_pos ⟨o.isLt, k.isLt⟩]

/-- A sum over `n` consecutive runs of `B` naturals is the sum of the runs' sums. -/
theorem sum_range_runs {β : Type*} [AddCommMonoid β] (f : ℕ → β) (B : ℕ) :
    ∀ n : ℕ, ∑ k ∈ Finset.range (n * B), f k = ∑ s ∈ Finset.range n, ∑ j ∈ Finset.range B, f (s * B + j)
  | 0 => by simp
  | n + 1 => by
    rw [Nat.succ_mul, Finset.sum_range_add, sum_range_runs f B n, Finset.sum_range_succ]

/-- The contraction over 4096 columns, regrouped into eight runs of 512. -/
theorem contraction_runs (g : ℕ → EReal) :
    ∑ k : Fin 4096, g k.val = ∑ s ∈ Finset.range 8, ∑ j : Fin 512, g (512 * s + j.val) := by
  rw [← Finset.sum_range g, show (4096 : ℕ) = 8 * 512 from rfl, sum_range_runs g 512 8]
  refine Finset.sum_congr rfl fun s _ => ?_
  rw [← Finset.sum_range fun j => g (512 * s + j)]
  exact Finset.sum_congr rfl fun j _ => by rw [Nat.mul_comm]

/-- THE LAW that joins the two programs: the layer's entry `(r, o)` is zero, plus the eight runs' sums of the contraction's
    terms, plus the bias. -/
theorem layer_runs (x : SX.Idx → EReal) (W : SW.Idx → EReal) (mask : SW.Idx → BitVec 1) (b : SB.Idx → EReal)
    (r : Fin 8192) (o : Fin 4096) :
    layerAt x W mask b r o
      = (0 + ∑ s ∈ Finset.range 8, ∑ j : Fin 512, term x W mask r.val o.val (512 * s + j.val)) + b (ix1 o) := by
  unfold layerAt
  rw [zero_add, ← contraction_runs fun k => term x W mask r.val o.val k]
  refine congrArg (· + b (ix1 o)) (Finset.sum_congr rfl fun k _ => ?_)
  unfold term
  rw [xAt_of_lt, wAt_of_lt]

end MaskedLinear

end
-- ==== Proof.RefLayer.lean ====
/-
  The reference program is the masked linear layer.

  Its result is `x · W'ᵀ + b`: one contraction over all 4096 columns of the input row against the weight row, the
  weight taken where the mask bit is set and the literal zero where it is clear, and the bias broadcast along the rows.
  Read at an index, stage by stage, that is the layer's defining formula.
-/
import proofs.«169040_j33251636806222_1_alg».proof.Proof.Gen.ReferenceIdeal.Read
import proofs.«169040_j33251636806222_1_alg».proof.Proof.Spec

noncomputable section

open scoped BigOperators

namespace Cert.ReferenceIdeal.Layer

open Cert.ReferenceIdeal Cert.ReferenceIdeal.Read Idealize.ShloMosaic Idealize.ShloMosaic.ValueIdx MaskedLinear

/-- A select against the zero literal keeps the weight where the bit is set and is zero where it is clear. -/
theorem select_zero_eq_kept (bit : BitVec 1) (w : EReal) :
    Scalar.select bit w (FloatOps.ofBits (F := Ideal) .f32 0x00000000#32) = kept bit w := by
  unfold kept Scalar.select
  rw [show (FloatOps.ofBits (F := Ideal) .f32 0x00000000#32 : EReal) = 0 from Ideal.ofBits_zero_f32]
  rfl

/-- The reference's result at `(r, o)` is the layer's entry. -/
theorem result_apply (x : SX.Idx → EReal) (W : SW.Idx → EReal) (mask : SW.Idx → BitVec 1) (b : SB.Idx → EReal)
    (r : Fin 8192) (o : Fin 4096) :
    val_main_v4 (F := Ideal) x W mask b (ix2 r o) = layerAt x W mask b r o := by
  have el : ∀ k : Fin 4096, lidx_main_v1 (ix2 r o) k = ix2 r k := fun k => funext fun a => Fin.ext (by
    match a with | ⟨0, _⟩ => rfl | ⟨1, _⟩ => rfl)
  have er : ∀ k : Fin 4096, ridx_main_v1 (ix2 r o) k = ix2 o k := fun k => funext fun a => Fin.ext (by
    match a with | ⟨0, _⟩ => rfl | ⟨1, _⟩ => rfl)
  have eb : idx_main_v2 (idx_main_v3 (ix2 r o)) = ix1 o := funext fun a => Fin.ext (by
    match a with | ⟨0, _⟩ => rfl)
  rw [val_main_v4_apply, val_main_v1_apply, val_main_v3_apply, val_main_v2_apply, eb]
  unfold layerAt
  refine congrArg (· + b (ix1 o)) (Finset.sum_congr rfl fun k _ => ?_)
  rw [el, er, val_main_v0_apply, val_main_call0_v0_apply, val_main_cst_apply]
  exact congrArg (x (ix2 r k) * ·) (select_zero_eq_kept _ _)

/-- The reference's result, as a function of its four arguments, is the layer. -/
theorem result_eq_layer (x : SX.Idx → EReal) (W : SW.Idx → EReal) (mask : SW.Idx → BitVec 1) (b : SB.Idx → EReal) :
    val_main_v4 (F := Ideal) x W mask b = layer x W mask b := by
  funext i
  obtain ⟨r, o, rfl⟩ : ∃ (r : Fin 8192) (o : Fin 4096), i = ix2 r o := ⟨i 0, i 1, eq_ix2 i⟩
  exact result_apply x W mask b r o

end Cert.ReferenceIdeal.Layer

end
-- ==== Proof.KPieces.lean ====
/-
  What the body's stores leave behind, case by case, as the body's stored values of the blocks it loaded.

  Every store of the body goes through the whole rectangle of its buffer, so what a buffer holds after the body is the
  value of the LAST store into it, and a load of the accumulator after a store reads that store's value.
  * At the first step of a run (k = 0) the accumulator is reset and then updated: it ends at the update of the reset value.
  * At every later step it ends at the update of what the step before left.
  * At the last step (k = 7) the output block is the epilogue of the accumulator as that step's update leaves it.
-/
import proofs.«169040_j33251636806222_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem offsets_zero : (![0, 0] : Fin 2 → Nat) = fun _ => 0 := funext fun a => by fin_cases a <;> rfl

/-- First step of a run: the accumulator ends at the update of the reset value. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .f32) (x2 : Vec F S1024x512 .i32) (x3 : Vec F S1x1024 .f32) :
    sout0_A_0 c i arg3 harg3 arg4 harg4 arg5 harg5 arg6 harg6 arg7 harg7 arg8 harg8 hc0 hc1 x0 x1 x2 x3 = k0_pay2 x2 x1 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) offsets_zero]
  simp only [View.readAt_eq_ld, harg3.read_unread, harg4.read_unread, harg5.read_unread,
    View.ld_unit_zero (S := S1024x512) offsets_zero, View.readCov_unit_zero (S := S1024x1024) _ offsets_zero]

/-- A middle step: the accumulator ends at the update of what the step before left. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .f32) (x2 : Vec F S1024x512 .i32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x2 x1 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) offsets_zero]
  simp only [View.readAt_eq_ld, harg3.read_unread, harg4.read_unread, harg5.read_unread, harg8.read_unread,
    View.ld_unit_zero (S := S1024x512) offsets_zero, View.ld_unit_zero (S := S1024x1024) offsets_zero]

/-- The last step: the accumulator, likewise. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x2 x1 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) offsets_zero]
  simp only [View.readAt_eq_ld, harg3.read_unread, harg4.read_unread, harg5.read_unread, harg8.read_unread,
    View.ld_unit_zero (S := S1024x512) offsets_zero, View.ld_unit_zero (S := S1024x1024) offsets_zero]

/-- The last step: the output block is the epilogue of the accumulator as this step's update leaves it. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x2 x1 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) offsets_zero]
  simp only [View.readAt_eq_ld, harg3.read_unread, harg4.read_unread, harg5.read_unread, harg6.read_unread, harg8.read_unread,
    View.ld_unit_zero (S := S1024x512) offsets_zero, View.ld_unit_zero (S := S1024x1024) offsets_zero,
    View.ld_unit_zero (S := S1x1024) offsets_zero, View.readCov_unit_zero (S := S1024x1024) _ offsets_zero]

end Cert.KernelIdeal.Pieces

end
-- ==== Proof.KPayload.lean ====
/-
  The kernel body's three stored values, read at an index over the extended reals.

  * The reset: every entry is the literal zero.
  * The update: entry `(p, q)` is the accumulator's entry plus the contraction, over the block's 512 columns, of row `p` of the
    input block against row `q` of the weight block, the weight taken where its mask word is not zero and zero where it is
    (the narrowing to bf16 is the identity on the extended reals, and the matrix unit accumulates into a zero block).
  * The epilogue: entry `(p, q)` is the accumulator's entry plus entry `q` of the bias block's one row.
-/
import proofs.«169040_j33251636806222_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The reset value is zero everywhere. -/
theorem reset_apply (j : S1024x1024.Idx) : k0_pay1 (F := Ideal) j = 0 := by
  unfold k0_pay1
  rw [shapeCast_self]
  exact Ideal.ofBits_zero_f32

/-! ### The contraction's operand indices, axis by axis -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The matrix unit's product of two `[1024, 512]` blocks, contracted along their columns into a zero block: entry `(p, q)`
    is the sum over the 512 columns of row `p` of the left against row `q` of the right. -/
theorem rowdot_apply (l r : FVec Ideal S1024x512 .bf16) (p q : Fin 1024) :
    matmul dot_S1024x512_S1024x512_S1024x1024_1_1_0_0_n_n none l r (constant S1024x1024 .f32 0x00000000#32) (ix2 p q)
      = ∑ j : Fin 512, l (ix2 p j) * r (ix2 q j) := by
  simp only [matmul]
  rw [Ideal.matmul_constant_zero_apply, ← Equiv.sum_comp (contrEquiv1 dot_S1024x512_S1024x512_S1024x1024_1_1_0_0_n_n 512 rfl rfl).symm]
  refine Finset.sum_congr rfl fun j _ => ?_
  have hj := contrEquiv1_symm_val dot_S1024x512_S1024x512_S1024x1024_1_1_0_0_n_n 512 rfl rfl j
  have el : dot_S1024x512_S1024x512_S1024x1024_1_1_0_0_n_n.lhsIdx (ix2 p q) ((contrEquiv1 dot_S1024x512_S1024x512_S1024x1024_1_1_0_0_n_n 512 rfl rfl).symm j) = ix2 p j := funext fun a => Fin.ext (by
    match a with
    | ⟨0, _⟩ => exact lhs_axis0 _ _
    | ⟨1, _⟩ => exact (lhs_axis1 _ _).trans hj)
  have er : dot_S1024x512_S1024x512_S1024x1024_1_1_0_0_n_n.rhsIdx (ix2 p q) ((contrEquiv1 dot_S1024x512_S1024x512_S1024x1024_1_1_0_0_n_n 512 rfl rfl).symm j) = ix2 q j := funext fun a => Fin.ext (by
    match a with
    | ⟨0, _⟩ => exact rhs_axis0 _ _
    | ⟨1, _⟩ => exact (rhs_axis1 _ _).trans hj)
  rw [el, er]

/-- The weight as the body masks it: kept where the mask word is not zero, the literal zero elsewhere. -/
def maskedW (mw : BitVec 32) (w : EReal) : EReal :=
  Scalar.select (IntOp.cmpi .ne mw 0#32) w (Ideal.ofBits .f32 0x00000000#32)

/-- THE UPDATE at an index: the accumulator's entry plus the 512-column contraction of the input block's row against the
    masked weight block's row. -/
theorem update_apply (mk : Vec Ideal S1024x512 .i32) (w xb : Vec Ideal S1024x512 .f32) (acc : Vec Ideal S1024x1024 .f32)
    (p q : Fin 1024) :
    k0_pay2 (F := Ideal) mk w xb acc (ix2 p q)
      = acc (ix2 p q) + ∑ j : Fin 512, xb (ix2 p j) * maskedW (mk (ix2 q j)) (w (ix2 q j)) := by
  unfold k0_pay2
  rw [shapeCast_self]
  refine (addf_apply _ _ _).trans (congrArg (acc (ix2 p q) + ·) ?_)
  refine (rowdot_apply _ _ p q).trans ?_
  rfl

/-- THE EPILOGUE at an index: the accumulator's entry plus the bias block's entry of the same column. -/
theorem epilogue_apply (acc : Vec Ideal S1024x1024 .f32) (bb : Vec Ideal S1x1024 .f32) (p q : Fin 1024) :
    k0_pay3 (F := Ideal) acc bb (ix2 p q) = acc (ix2 p q) + bb (ix2 (0 : Fin 1) q) := by
  unfold k0_pay3
  rw [shapeCast_self]
  refine (addf_apply _ _ _).trans (congrArg (acc (ix2 p q) + ·) ?_)
  exact broadcastTo_1b_ab_apply bb _ p q

end Cert.KernelIdeal.Payload

end
-- ==== Proof.KBlocks.lean ====
/-
  Each block the body loads at a grid point, as entries of the argument arrays.

  The grid has 256 points; point `t` is row tile `t / 32`, feature tile `(t / 8) % 4` and contraction step `t % 8`.
  At point `t` the input block is rows `1024·(t / 32) …`, columns `512·(t % 8) …` of the input; the weight block and the
  mask block are rows `1024·((t / 8) % 4) …`, the same columns, of the weight and of the mask; the bias block is columns
  `1024·((t / 8) % 4) …` of the bias's one row. Before the kernel region the mask's bits are widened to words and the bias
  is recast as one row: a widened bit is not zero exactly when the bit is set, so the body's masked weight is the
  layer's.
-/
import proofs.«169040_j33251636806222_1_alg».proof.Proof.Gen.KernelIdeal.Frame
import proofs.«169040_j33251636806222_1_alg».proof.Proof.KPayload
import proofs.«169040_j33251636806222_1_alg».proof.Proof.Spec
import Idealize.ShloMosaic.Lib.StableHlo.Run

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx Idealize.SL.Sem Idealize.ShloMosaic.StableHlo
open MaskedLinear Cert.KernelIdeal.Payload

variable (m : (ℓ : Loc nD τ sig) → Buf (Elt Ideal) ℓ)

/-! ### The arguments, and the blocks at a point, at their literal types -/

abbrev xin (c : Dev nD) : SX.Idx → EReal := m ((c : Thread nD τ).loc main_arg0)
abbrev win (c : Dev nD) : SW.Idx → EReal := m ((c : Thread nD τ).loc main_arg1)
abbrev kin (c : Dev nD) : SW.Idx → BitVec 1 := m ((c : Thread nD τ).loc main_arg2)
abbrev bin (c : Dev nD) : SB.Idx → EReal := m ((c : Thread nD τ).loc main_arg3)

abbrev xblk (c : Dev nD) (t : Fin cfg0.N) : Vec Ideal S1024x512 .f32 := iblk m c 0 t
abbrev wblk (c : Dev nD) (t : Fin cfg0.N) : Vec Ideal S1024x512 .f32 := iblk m c 1 t
abbrev kblk (c : Dev nD) (t : Fin cfg0.N) : Vec Ideal S1024x512 .i32 := iblk m c 2 t
abbrev bblk (c : Dev nD) (t : Fin cfg0.N) : Vec Ideal S1x1024 .f32 := iblk m c 3 t

/-! ### The index maps, decided over the grid -/

theorem tiles : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = (t.val / 8) % 4 ∧ win0_2.index t (1 : Fin 2) = t.val % 8
    ∧ win0_3.index t (0 : Fin 2) = 0 ∧ win0_3.index t (1 : Fin 2) = (t.val / 8) % 4
    ∧ win0_4.index t (0 : Fin 2) = t.val / 32 ∧ win0_4.index t (1 : Fin 2) = (t.val / 8) % 4 :=
  (by decide +kernel : ∀ t : Fin grid0.N, _)

/-! ### What the host wrote before the region -/

/-- The mask as the region finds it: each bit widened to a word. -/
theorem maskWords_eq (c : Dev nD) :
    (V m c main_v1 : S4096x4096.Idx → BitVec 32) = extui 32 (kin m c) Facts₀.natLt_1_32 := by
  dsimp only [Gen.V, Gen.hostOps0]
  after_results <;> rfl

/-- The bias as the region finds it: recast as one row. -/
theorem biasRow_eq (c : Dev nD) :
    (V m c main_v0 : S1x4096.Idx → EReal) = shapeCast S1x4096 (bin m c) Facts₀.shapeCasts_S4096_S1x4096 := by
  dsimp only [Gen.V, Gen.hostOps0]
  after_results <;> rfl

/-- A widened bit is not zero exactly when the bit is set: the body's masked weight is the layer's. -/
theorem maskedW_widened (bit : BitVec 1) (w : EReal) : maskedW (bit.setWidth 32) w = kept bit w := by
  unfold maskedW kept Scalar.select
  rw [Ideal.ofBits_zero_f32]
  have h : IntOp.cmpi .ne (bit.setWidth 32) 0#32 = bit := by revert bit; decide
  rw [h]
  rfl

/-! ### The blocks' entries -/

theorem xblk_apply (c : Dev nD) (t : Fin cfg0.N) (p : Fin 1024) (j : Fin 512) :
    xblk m c t (ix2 p j) = xAt (xin m c) (1024 * (t.val / 32) + p.val) (512 * (t.val % 8) + j.val) := by
  have hN : t.val < 256 := lt_of_lt_of_eq t.isLt (show cfg0.N = 256 from N_0)
  have hr : 1024 * (t.val / 32) + p.val < 8192 := by have := p.isLt; omega
  have hk : 512 * (t.val % 8) + j.val < 4096 := by have := j.isLt; omega
  obtain ⟨e0, e1, -⟩ := tiles t
  unfold xAt
  rw [dif_pos ⟨hr, hk⟩]
  show V m c main_arg0 (((cfg0.win 0).blk t).view.emb (ix2 p j)) = _
  rw [V_main_arg0]
  refine congrArg (xin m c) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * j.val = 512 * (t.val % 8) + j.val; omega

theorem wblk_apply (c : Dev nD) (t : Fin cfg0.N) (q : Fin 1024) (j : Fin 512)
    (hr : 1024 * ((t.val / 8) % 4) + q.val < 4096) (hk : 512 * (t.val % 8) + j.val < 4096) :
    wblk m c t (ix2 q j) = win m c (ix2 ⟨1024 * ((t.val / 8) % 4) + q.val, hr⟩ ⟨512 * (t.val % 8) + j.val, hk⟩) := by
  obtain ⟨-, -, e0, e1, -⟩ := tiles t
  show V m c main_arg1 (((cfg0.win 1).blk t).view.emb (ix2 q j)) = _
  rw [V_main_arg1]
  refine congrArg (win m c) (funext fun a => Fin.ext ?_)
  match a with
  | ⟨0, _⟩ => show win0_1.index t (0 : Fin 2) * 1024 + 1 * q.val = 1024 * ((t.val / 8) % 4) + q.val; omega
  | ⟨1, _⟩ => show win0_1.index t (1 : Fin 2) * 512 + 1 * j.val = 512 * (t.val % 8) + j.val; omega

theorem kblk_apply (c : Dev nD) (t : Fin cfg0.N) (q : Fin 1024) (j : Fin 512)
    (hr : 1024 * ((t.val / 8) % 4) + q.val < 4096) (hk : 512 * (t.val % 8) + j.val < 4096) :
    kblk m c t (ix2 q j)
      = (kin m c (ix2 ⟨1024 * ((t.val / 8) % 4) + q.val, hr⟩ ⟨512 * (t.val % 8) + j.val, hk⟩)).setWidth 32 := by
  obtain ⟨-, -, -, -, e0, e1, -⟩ := tiles t
  show (V m c main_v1 : S4096x4096.Idx → BitVec 32) (((cfg0.win 2).blk t).view.emb (ix2 q j)) = _
  rw [maskWords_eq]
  refine (extui_apply _ _ _).trans (congrArg (fun z => (kin m c z).setWidth 32) (funext fun a => Fin.ext ?_))
  match a with
  | ⟨0, _⟩ => show win0_2.index t (0 : Fin 2) * 1024 + 1 * q.val = 1024 * ((t.val / 8) % 4) + q.val; omega
  | ⟨1, _⟩ => show win0_2.index t (1 : Fin 2) * 512 + 1 * j.val = 512 * (t.val % 8) + j.val; omega

/-- The body's masked weight at a point is the layer's masked weight at the block's place in the arrays. -/
theorem maskedW_blk (c : Dev nD) (t : Fin cfg0.N) (q : Fin 1024) (j : Fin 512) :
    maskedW (kblk m c t (ix2 q j)) (wblk m c t (ix2 q j))
      = wAt (win m c) (kin m c) (1024 * ((t.val / 8) % 4) + q.val) (512 * (t.val % 8) + j.val) := by
  have hN : t.val < 256 := lt_of_lt_of_eq t.isLt (show cfg0.N = 256 from N_0)
  have hr : 1024 * ((t.val / 8) % 4) + q.val < 4096 := by have := q.isLt; omega
  have hk : 512 * (t.val % 8) + j.val < 4096 := by have := j.isLt; omega
  unfold wAt
  rw [dif_pos ⟨hr, hk⟩, kblk_apply m c t q j hr hk, wblk_apply m c t q j hr hk]
  exact maskedW_widened _ _

theorem bblk_apply (c : Dev nD) (t : Fin cfg0.N) (q : Fin 1024) (hr : 1024 * ((t.val / 8) % 4) + q.val < 4096) :
    bblk m c t (ix2 (0 : Fin 1) q) = bin m c (ix1 ⟨1024 * ((t.val / 8) % 4) + q.val, hr⟩) := by
  obtain ⟨-, -, -, -, -, -, e0, e1, -⟩ := tiles t
  show (V m c main_v0 : S1x4096.Idx → EReal) (((cfg0.win 3).blk t).view.emb (ix2 (0 : Fin 1) q)) = _
  rw [biasRow_eq]
  have e : ((cfg0.win 3).blk t).view.emb (ix2 (0 : Fin 1) q)
      = ix2 (0 : Fin 1) (⟨1024 * ((t.val / 8) % 4) + q.val, hr⟩ : Fin 4096) := funext fun a => Fin.ext (by
    match a with
    | ⟨0, _⟩ => show win0_3.index t (0 : Fin 2) * 1 + 1 * 0 = 0; omega
    | ⟨1, _⟩ => show win0_3.index t (1 : Fin 2) * 1024 + 1 * q.val = 1024 * ((t.val / 8) % 4) + q.val; omega)
  rw [e]
  exact shapeCast_a_1a_apply (bin m c) _ 0 _

end Cert.KernelIdeal.Layer

end
-- ==== Proof.KFold.lean ====
/-
  The accumulator over a run of eight contraction steps.

  Grid point `n` adds to entry `(p, q)` of the accumulator the 512 terms of the contraction that its blocks hold: the
  terms `512·(n % 8) … 512·(n % 8) + 511` of input row `1024·(n / 32) + p` against masked weight row
  `1024·((n / 8) % 4) + q` (`stepTerm`). The first point of a run starts from the reset value, zero; every later point
  starts from what the point before left. So after point `t` the accumulator holds zero plus the addends of the points
  `8·(t / 8) … t` of its run, and at the run's last point the output block is that sum plus the bias block.
-/
import proofs.«169040_j33251636806222_1_alg».proof.Proof.Gen.KernelIdeal.Value
import proofs.«169040_j33251636806222_1_alg».proof.Proof.KPieces
import proofs.«169040_j33251636806222_1_alg».proof.Proof.KBlocks

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx Idealize.SL.Sem
open MaskedLinear Cert.KernelIdeal.Payload

variable (m : (ℓ : Loc nD τ sig) → Buf (Elt Ideal) ℓ)

/-- What grid point `n` adds to the accumulator's entry `y`. -/
def stepTerm (c : Dev nD) (n : ℕ) : S1024x1024.Idx → EReal := fun y =>
  ∑ j : Fin 512, term (xin m c) (win m c) (kin m c)
    (1024 * (n / 32) + (y 0).val) (1024 * ((n / 8) % 4) + (y 1).val) (512 * (n % 8) + j.val)

/-- The body's update at point `t`, over any accumulator: the accumulator's entry plus the point's addend. -/
theorem update_at (c : Dev nD) (t : Fin cfg0.N) (acc : Vec Ideal S1024x1024 .f32) (p q : Fin 1024) :
    k0_pay2 (F := Ideal) (kblk m c t) (wblk m c t) (xblk m c t) acc (ix2 p q)
      = acc (ix2 p q) + stepTerm m c t.val (ix2 p q) := by
  refine (update_apply (kblk m c t) (wblk m c t) (xblk m c t) acc p q).trans (congrArg (acc (ix2 p q) + ·) ?_)
  show ∑ j : Fin 512, xblk m c t (ix2 p j) * maskedW (kblk m c t (ix2 q j)) (wblk m c t (ix2 q j))
    = ∑ j : Fin 512, term (xin m c) (win m c) (kin m c)
        (1024 * (t.val / 32) + p.val) (1024 * ((t.val / 8) % 4) + q.val) (512 * (t.val % 8) + j.val)
  refine Finset.sum_congr rfl fun j _ => ?_
  rw [xblk_apply, maskedW_blk]
  rfl

/-- At the first point of a run the accumulator ends at zero plus the point's addend, whatever it held. -/
theorem scratch_step_first (c : Dev nD) (n : ℕ) (hb : n < cfg0.N) (h0 : n % 8 = 0) (acc : Vec Ideal S1024x1024 .f32)
    (y : S1024x1024.Idx) : Value.scAt0_0 m c n hb acc y = 0 + stepTerm m c n y := by
  obtain ⟨p, q, rfl⟩ : ∃ (p q : Fin 1024), y = ix2 p q := ⟨y 0, y 1, eq_ix2 y⟩
  have h1 : ¬n % 8 = 7 := by omega
  unfold Value.scAt0_0
  rw [dif_pos h0, dif_neg h1, Pieces.scratch_first]
  refine (update_at m c ⟨n, hb⟩ (k0_pay1 (F := Ideal)) p q).trans ?_
  rw [reset_apply]

/-- At every later point of a run it ends at what the point before left plus the point's addend. -/
theorem scratch_step_later (c : Dev nD) (n : ℕ) (hb : n < cfg0.N) (h0 : ¬n % 8 = 0) (acc : Vec Ideal S1024x1024 .f32)
    (y : S1024x1024.Idx) : Value.scAt0_0 m c n hb acc y = acc y + stepTerm m c n y := by
  obtain ⟨p, q, rfl⟩ : ∃ (p q : Fin 1024), y = ix2 p q := ⟨y 0, y 1, eq_ix2 y⟩
  unfold Value.scAt0_0
  rw [dif_neg h0]
  by_cases h1 : n % 8 = 7
  · rw [dif_pos h1, Pieces.scratch_last]
    exact update_at m c ⟨n, hb⟩ acc p q
  · rw [dif_neg h1, Pieces.scratch_middle]
    exact update_at m c ⟨n, hb⟩ acc p q

/-- THE ACCUMULATOR after point `t`: zero plus the addends of the points of `t`'s run up to `t`. -/
theorem scratch_after (c : Dev nD) (t : Fin cfg0.N) (y : S1024x1024.Idx) :
    (outsAt0 m c t.val t.isLt).2 y
      = 0 + ∑ s ∈ Finset.range (t.val % 8 + 1), stepTerm m c (8 * (t.val / 8) + s) y := by
  have hN : t.val < 256 := lt_of_lt_of_eq t.isLt (show cfg0.N = 256 from N_0)
  rw [Value.soutsAt0_0_eq]
  exact Pipeline.accAt_add_apply (ι := S1024x1024.Idx) (β := EReal) _ (Value.scAt0_0 m c) (fun _ => 0) (stepTerm m c)
    (8 * (t.val / 8)) 7
    (fun h i => scratch_step_first m c _ h (by omega) _ i)
    (fun n h acc i hlt hle => scratch_step_later m c n h (by omega) acc i)
    (t.val % 8) (by omega) _ y

/-- At the last point of a run the output block is the accumulator, as that point leaves it, plus the bias block. -/
theorem out_at_last (c : Dev nD) (t : Fin cfg0.N) (h7 : t.val % 8 = 7) (p q : Fin 1024) :
    (outsAt0 m c t.val t.isLt).1 (ix2 p q)
      = (outsAt0 m c t.val t.isLt).2 (ix2 p q) + bblk m c t (ix2 (0 : Fin 1) q) := by
  have h0 : ¬t.val % 8 = 0 := by omega
  rw [outsAt0_C m c t h0 h7]
  dsimp only
  rw [Pieces.out_last, Pieces.scratch_last]
  exact epilogue_apply _ (bblk m c t) p q

end Cert.KernelIdeal.Layer

end
-- ==== Proof.KFinal.lean ====
/-
  The kernel's result array is the masked linear layer of its arguments.

  The output's block `(t / 32, (t / 8) % 4)` is written back once, at the last point of its run of eight contraction
  steps (`t % 8 = 7`). There the accumulator holds zero plus the eight steps' addends — the whole contraction over 4096
  columns, regrouped into eight runs of 512 — and the body adds the bias block: that is the layer's entry at the
  block's place in the array. The 32 output blocks tile the array, so the array ends holding the layer.
-/
import proofs.«169040_j33251636806222_1_alg».proof.Proof.KFold

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx Idealize.SL.Sem
open MaskedLinear Cert.KernelIdeal.Payload

variable (m : (ℓ : Loc nD τ sig) → Buf (Elt Ideal) ℓ) (ρ : Dev nD → PrngReg)

/-- The layer of the argument arrays as launched. -/
abbrev result (c : Dev nD) : S8192x4096.Idx → EReal := layer (xin m c) (win m c) (kin m c) (bin m c)

/-- The eight addends of a run, at entry `(p, q)`, are the eight runs of the contraction of the block's row and feature. -/
theorem run_terms (c : Dev nD) (t : Fin cfg0.N) (h7 : t.val % 8 = 7) (p q : Fin 1024) :
    ∑ s ∈ Finset.range (t.val % 8 + 1), stepTerm m c (8 * (t.val / 8) + s) (ix2 p q)
      = ∑ s ∈ Finset.range 8, ∑ j : Fin 512, term (xin m c) (win m c) (kin m c)
          (1024 * (t.val / 32) + p.val) (1024 * ((t.val / 8) % 4) + q.val) (512 * s + j.val) := by
  rw [h7]
  refine Finset.sum_congr rfl fun s hs => ?_
  have hs8 : s < 8 := Finset.mem_range.mp hs
  show ∑ j : Fin 512, term (xin m c) (win m c) (kin m c)
      (1024 * ((8 * (t.val / 8) + s) / 32) + p.val) (1024 * (((8 * (t.val / 8) + s) / 8) % 4) + q.val)
      (512 * ((8 * (t.val / 8) + s) % 8) + j.val) = _
  have a0 : (8 * (t.val / 8) + s) / 32 = t.val / 32 := by omega
  have a1 : ((8 * (t.val / 8) + s) / 8) % 4 = (t.val / 8) % 4 := by omega
  have a2 : (8 * (t.val / 8) + s) % 8 = s := by omega
  rw [a0, a1, a2]

/-- WHAT A FLUSHING POINT WRITES BACK is its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : t.val < 256 := lt_of_lt_of_eq t.isLt (show cfg0.N = 256 from N_0)
  obtain ⟨-, -, -, -, -, -, -, -, e0, e1⟩ := tiles t
  rw [Value.flushed4]
  refine funext fun (y : S1024x1024.Idx) => ?_
  obtain ⟨p, q, rfl⟩ : ∃ (p q : Fin 1024), y = ix2 p q := ⟨y 0, y 1, eq_ix2 y⟩
  have hr : 1024 * (t.val / 32) + p.val < 8192 := by have := p.isLt; omega
  have ho : 1024 * ((t.val / 8) % 4) + q.val < 4096 := by have := q.isLt; omega
  have e : ((cfg0.win 4).blk t).view.emb (ix2 p q)
      = ix2 (⟨1024 * (t.val / 32) + p.val, hr⟩ : Fin 8192) (⟨1024 * ((t.val / 8) % 4) + q.val, ho⟩ : Fin 4096) :=
    funext fun a => Fin.ext (by
      match a with
      | ⟨0, _⟩ => show win0_4.index t (0 : Fin 2) * 1024 + 1 * p.val = 1024 * (t.val / 32) + p.val; omega
      | ⟨1, _⟩ => show win0_4.index t (1 : Fin 2) * 1024 + 1 * q.val = 1024 * ((t.val / 8) % 4) + q.val; omega)
  show (outsAt0 m c t.val t.isLt).1 (ix2 p q) = result m c (((cfg0.win 4).blk t).view.emb (ix2 p q))
  rw [e]
  show _ = layerAt (xin m c) (win m c) (kin m c) (bin m c)
    (⟨1024 * (t.val / 32) + p.val, hr⟩ : Fin 8192) (⟨1024 * ((t.val / 8) % 4) + q.val, ho⟩ : Fin 4096)
  rw [layer_runs, out_at_last m c t h7 p q, scratch_after, run_terms m c t h7 p q, bblk_apply m c t q ho]

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every entry of the array is in the block of the last point of some run. -/
theorem cover (i : S8192x4096.Idx) :
    ∃ t : Fin cfg0.N, (cfg0.win 4).flush t = true ∧ i ∈ ((cfg0.win 4).blk t).view.set := by
  have h0 : (i 0).val < 8192 := idx2_lt0 i
  have h1 : (i 1).val < 4096 := idx2_lt1 i
  have hN : cfg0.N = 256 := N_0
  have hb : 32 * ((i 0).val / 1024) + 8 * ((i 1).val / 1024) + 7 < cfg0.N := by omega
  obtain ⟨-, -, -, -, -, -, -, -, e0, e1⟩ := tiles ⟨32 * ((i 0).val / 1024) + 8 * ((i 1).val / 1024) + 7, hb⟩
  have v : (⟨32 * ((i 0).val / 1024) + 8 * ((i 1).val / 1024) + 7, hb⟩ : Fin cfg0.N).val
      = 32 * ((i 0).val / 1024) + 8 * ((i 1).val / 1024) + 7 := rfl
  rw [v] at e0 e1
  refine ⟨⟨32 * ((i 0).val / 1024) + 8 * ((i 1).val / 1024) + 7, hb⟩, (flush0_4 _).mpr (by rw [v]; omega), ?_⟩
  rw [mem_blk]
  intro a
  match a with
  | ⟨0, _⟩ =>
    show win0_4.index _ (0 : Fin 2) * 1024 ≤ (i 0).val ∧ (i 0).val < win0_4.index _ (0 : Fin 2) * 1024 + 1024
    omega
  | ⟨1, _⟩ =>
    show win0_4.index _ (1 : Fin 2) * 1024 ≤ (i 1).val ∧ (i 1).val < win0_4.index _ (1 : Fin 2) * 1024 + 1024
    omega

/-- THE ARRAY after the run is the layer of the arguments. -/
theorem final (c : Dev nD) : (dats m 0 c).arrAt 4 cfg0.N = result m c :=
  (dats m 0 c).arrAt_eq_of_cover 4 (result m c) (fun t hf => flushed_eq m c t hf) cover

/-- The kernel's run: it ends with the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  A masked linear layer: `out = x · W'ᵀ + b`, where `W'` is the weight `W` kept where the mask is set and zero where it is
  clear; `x` is `[8192, 4096]`, `W` and the mask `[4096, 4096]`, `b` `[4096]`.

  The kernel tiles the result into 8 × 4 blocks of `[1024, 1024]` and, for each, walks the contraction in eight steps of
  512 columns: the first step resets an accumulator, every step adds the product of the input block with the masked
  weight block, and the last step adds the bias block and writes the block out. The reference contracts all 4096 columns
  at once and adds the bias. Over the extended reals the narrowing of the blocks to bf16 is the identity and addition is
  a commutative monoid, so the eight partial sums ARE the one sum, whatever the inputs hold: the two results are equal
  entry by entry, and the precondition is never opened.

  `Spec` states the layer and the regrouping law; `RefLayer` reads the reference's result as the layer; `KPieces`,
  `KPayload`, `KBlocks`, `KFold` and `KFinal` read the kernel's: what each step's stores leave, each stored value at an
  index, each block as entries of the arguments, the accumulator over a run of eight steps, and the result array.
-/
import proofs.«169040_j33251636806222_1_alg».proof.Defs
import proofs.«169040_j33251636806222_1_alg».proof.Proof.Gen.Kernel
import proofs.«169040_j33251636806222_1_alg».proof.Proof.Gen.Kernel.Skeleton
import proofs.«169040_j33251636806222_1_alg».proof.Proof.Gen.Kernel.Launch
import proofs.«169040_j33251636806222_1_alg».proof.Proof.Gen.Kernel.Points
import proofs.«169040_j33251636806222_1_alg».proof.Proof.Gen.Kernel.Frame
import proofs.«169040_j33251636806222_1_alg».proof.Proof.Gen.KernelIdeal
import proofs.«169040_j33251636806222_1_alg».proof.Proof.Gen.KernelIdeal.Skeleton
import proofs.«169040_j33251636806222_1_alg».proof.Proof.Gen.KernelIdeal.Launch
import proofs.«169040_j33251636806222_1_alg».proof.Proof.Gen.KernelIdeal.Points
import proofs.«169040_j33251636806222_1_alg».proof.Proof.Gen.KernelIdeal.Frame
import proofs.«169040_j33251636806222_1_alg».proof.Proof.Gen.ReferenceIdeal
import proofs.«169040_j33251636806222_1_alg».proof.Proof.Gen.Pre_finite_inputs
import proofs.«169040_j33251636806222_1_alg».proof.Proof.Gen.KernelIdeal.Value
import proofs.«169040_j33251636806222_1_alg».proof.Proof.Gen.ReferenceIdeal.Run
import proofs.«169040_j33251636806222_1_alg».proof.Proof.Gen.ReferenceIdeal.Read
import proofs.«169040_j33251636806222_1_alg».proof.Proof.RefLayer
import proofs.«169040_j33251636806222_1_alg».proof.Proof.KFinal
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the layer of their (agreeing) arguments. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  exact Cert.ReferenceIdeal.Layer.result_eq_layer _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
